-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x16x16 : Shape := ⟨4, ![1024, 128, 16, 16]⟩
abbrev S1x128x512x512 : Shape := ⟨4, ![1, 128, 512, 512]⟩
abbrev S1024x2 : Shape := ⟨2, ![1024, 2]⟩
abbrev S_ : Shape := ⟨0, ![]⟩

class Facts : Prop where
  bcast_S_S1024x128x16x16 : S_.BroadcastsInDim S1024x128x16x16 (![] : Fin 0 → Fin S1024x128x16x16.rank)
  reducesTo_S1024x128x16x16_S_d0_1_2_3 : S1024x128x16x16.ReducesTo [0, 1, 2, 3] S_
  h_S_ : 0 < S_.numel
  bcast_S_S1x128x512x512 : S_.BroadcastsInDim S1x128x512x512 (![] : Fin 0 → Fin S1x128x512x512.rank)
  reducesTo_S1x128x512x512_S_d0_1_2_3 : S1x128x512x512.ReducesTo [0, 1, 2, 3] S_

variable [Facts]

def fn {F : FTy → Type} [FloatOps F] (main_arg0 : FVec F S1024x128x16x16 .f32) (main_arg1 : FVec F S1x128x512x512 .f32) (main_arg2 : IVec S1024x2 32) : IVec S_ 1 :=
  let main_v0 : FVec F S1024x128x16x16 .f32 := Host.absf main_arg0
  let main_cst : FVec F S_ .f32 := constant S_ .f32 0x7F800000#32
  let main_v1 : FVec F S1024x128x16x16 .f32 := broadcastInDim S1024x128x16x16 ![] bcast_S_S1024x128x16x16 main_cst
  let main_v2 : IVec S1024x128x16x16 1 := cmpf .olt main_v0 main_v1
  let main_c : IVec S_ 1 := constantI S_ 1 1#1
  let main_v3 : IVec S_ 1 := (fun x v => Host.reduce IntOp.andi x v reducesTo_S1024x128x16x16_S_d0_1_2_3 h_S_) main_v2 main_c
  let main_v4 : FVec F S1x128x512x512 .f32 := Host.absf main_arg1
  let main_cst_0 : FVec F S_ .f32 := constant S_ .f32 0x7F800000#32
  let main_v5 : FVec F S1x128x512x512 .f32 := broadcastInDim S1x128x512x512 ![] bcast_S_S1x128x512x512 main_cst_0
  let main_v6 : IVec S1x128x512x512 1 := cmpf .olt main_v4 main_v5
  let main_c_1 : IVec S_ 1 := constantI S_ 1 1#1
  let main_v7 : IVec S_ 1 := (fun x v => Host.reduce IntOp.andi x v reducesTo_S1x128x512x512_S_d0_1_2_3 h_S_) main_v6 main_c_1
  let main_v8 : IVec S_ 1 := andi main_v3 main_v7
  main_v8
-- ==== Kernel.lean ====
abbrev S1024x128x16x16 : Shape := ⟨4, ![1024, 128, 16, 16]⟩
abbrev S1x128x512x512 : Shape := ⟨4, ![1, 128, 512, 512]⟩
abbrev S1024x2 : Shape := ⟨2, ![1024, 2]⟩
abbrev S1024x1 : Shape := ⟨2, ![1024, 1]⟩
abbrev S1024 : Shape := ⟨1, ![1024]⟩
abbrev S_ : Shape := ⟨0, ![]⟩
abbrev S1024x1x1 : Shape := ⟨3, ![1024, 1, 1]⟩
abbrev S16 : Shape := ⟨1, ![16]⟩
abbrev S1x16x1 : Shape := ⟨3, ![1, 16, 1]⟩
abbrev S1024x16x1 : Shape := ⟨3, ![1024, 16, 1]⟩
abbrev S1x1x16 : Shape := ⟨3, ![1, 1, 16]⟩
abbrev S1024x1x16 : Shape := ⟨3, ![1024, 1, 16]⟩
abbrev S1024x16x16 : Shape := ⟨3, ![1024, 16, 16]⟩
abbrev S262144 : Shape := ⟨1, ![262144]⟩
abbrev S128x1024x16x16 : Shape := ⟨4, ![128, 1024, 16, 16]⟩
abbrev S128x262144 : Shape := ⟨2, ![128, 262144]⟩
abbrev S262144x1 : Shape := ⟨2, ![262144, 1]⟩
abbrev S128x512x512 : Shape := ⟨3, ![128, 512, 512]⟩
abbrev S1x512x512 : Shape := ⟨3, ![1, 512, 512]⟩
abbrev S128x16x512 : Shape := ⟨3, ![128, 16, 512]⟩
abbrev S1x16x512 : Shape := ⟨3, ![1, 16, 512]⟩

abbrev nBuf : Space → Nat
  | .hbm => 69
  | .vmem => 8
  | .smem => 0
  | _ => 0

abbrev bufTy : (tb : Table) → Fin (tcTables nBuf tb) → BufTy
  | .hbm, ⟨0, _⟩ => ⟨S1024x128x16x16, .f32⟩
  | .hbm, ⟨1, _⟩ => ⟨S1x128x512x512, .f32⟩
  | .hbm, ⟨2, _⟩ => ⟨S1024x2, .i32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024x1x1, .i32⟩
  | .hbm, ⟨20, _⟩ => ⟨S16, .i32⟩
  | .hbm, ⟨21, _⟩ => ⟨S1x16x1, .i32⟩
  | .hbm, ⟨22, _⟩ => ⟨S1024x16x1, .i32⟩
  | .hbm, ⟨23, _⟩ => ⟨S1024x16x1, .i32⟩
  | .hbm, ⟨24, _⟩ => ⟨S1024x16x1, .i32⟩
  | .hbm, ⟨25, _⟩ => ⟨S1024x1x1, .i32⟩
  | .hbm, ⟨26, _⟩ => ⟨S16, .i32⟩
  | .hbm, ⟨27, _⟩ => ⟨S1x1x16, .i32⟩
  | .hbm, ⟨28, _⟩ => ⟨S1024x1x16, .i32⟩
  | .hbm, ⟨29, _⟩ => ⟨S1024x1x16, .i32⟩
  | .hbm, ⟨30, _⟩ => ⟨S1024x1x16, .i32⟩
  | .hbm, ⟨31, _⟩ => ⟨S_, .i32⟩
  | .hbm, ⟨32, _⟩ => ⟨S1024x16x1, .i32⟩
  | .hbm, ⟨33, _⟩ => ⟨S1024x16x1, .i32⟩
  | .hbm, ⟨34, _⟩ => ⟨S1024x16x16, .i32⟩
  | .hbm, ⟨35, _⟩ => ⟨S1024x16x16, .i32⟩
  | .hbm, ⟨36, _⟩ => ⟨S1024x16x16, .i32⟩
  | .hbm, ⟨37, _⟩ => ⟨S262144, .i32⟩
  | .hbm, ⟨38, _⟩ => ⟨S128x1024x16x16, .f32⟩
  | .hbm, ⟨39, _⟩ => ⟨S128x262144, .f32⟩
  | .hbm, ⟨40, _⟩ => ⟨S_, .f32⟩
  | .hbm, ⟨41, _⟩ => ⟨S128x262144, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S128x262144, .f32⟩
  | .hbm, ⟨51, _⟩ => ⟨S_, .f32⟩
  | .hbm, ⟨52, _⟩ => ⟨S262144, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S_, .f32⟩
  | .hbm, ⟨62, _⟩ => ⟨S262144, .f32⟩
  | .hbm, ⟨63, _⟩ => ⟨S262144, .f32⟩
  | .hbm, ⟨64, _⟩ => ⟨S128x512x512, .f32⟩
  | .hbm, ⟨65, _⟩ => ⟨S1x512x512, .f32⟩
  | .hbm, ⟨66, _⟩ => ⟨S128x512x512, .f32⟩
  | .hbm, ⟨67, _⟩ => ⟨S128x512x512, .f32⟩
  | .hbm, ⟨68, _⟩ => ⟨S1x128x512x512, .f32⟩
  | .local _ .vmem, ⟨0, _⟩ => ⟨S128x16x512, .f32⟩
  | .local _ .vmem, ⟨1, _⟩ => ⟨S128x16x512, .f32⟩
  | .local _ .vmem, ⟨2, _⟩ => ⟨S1x16x512, .f32⟩
  | .local _ .vmem, ⟨3, _⟩ => ⟨S1x16x512, .f32⟩
  | .local _ .vmem, ⟨4, _⟩ => ⟨S128x16x512, .f32⟩
  | .local _ .vmem, ⟨5, _⟩ => ⟨S128x16x512, .f32⟩
  | .local _ .vmem, ⟨6, _⟩ => ⟨S128x16x512, .f32⟩
  | .local _ .vmem, ⟨7, _⟩ => ⟨S128x16x512, .f32⟩
  | _, _ => ⟨S1024x128x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  slices_S1024x2_S1024x1_0_1 : S1024x2.Slices ![0, 1] S1024x1
  bcast_S1024_S1024x1x1_0 : S1024.BroadcastsInDim S1024x1x1 (![0] : Fin 1 → Fin S1024x1x1.rank)
  bcast_S16_S1x16x1_1 : S16.BroadcastsInDim S1x16x1 (![1] : Fin 1 → Fin S1x16x1.rank)
  bcast_S1024x1x1_S1024x16x1_0_1_2 : S1024x1x1.BroadcastsInDim S1024x16x1 (![0, 1, 2] : Fin 3 → Fin S1024x16x1.rank)
  bcast_S1x16x1_S1024x16x1_0_1_2 : S1x16x1.BroadcastsInDim S1024x16x1 (![0, 1, 2] : Fin 3 → Fin S1024x16x1.rank)
  bcast_S16_S1x1x16_2 : S16.BroadcastsInDim S1x1x16 (![2] : Fin 1 → Fin S1x1x16.rank)
  bcast_S1024x1x1_S1024x1x16_0_1_2 : S1024x1x1.BroadcastsInDim S1024x1x16 (![0, 1, 2] : Fin 3 → Fin S1024x1x16.rank)
  bcast_S1x1x16_S1024x1x16_0_1_2 : S1x1x16.BroadcastsInDim S1024x1x16 (![0, 1, 2] : Fin 3 → Fin S1024x1x16.rank)
  bcast_S_S1024x16x1 : S_.BroadcastsInDim S1024x16x1 (![] : Fin 0 → Fin S1024x16x1.rank)
  bcast_S1024x16x1_S1024x16x16_0_1_2 : S1024x16x1.BroadcastsInDim S1024x16x16 (![0, 1, 2] : Fin 3 → Fin S1024x16x16.rank)
  bcast_S1024x1x16_S1024x16x16_0_1_2 : S1024x1x16.BroadcastsInDim S1024x16x16 (![0, 1, 2] : Fin 3 → Fin S1024x16x16.rank)
  shapeCasts_S1024x16x16_S262144 : S1024x16x16.ShapeCasts S262144
  transposes_S1024x128x16x16_S128x1024x16x16_1_0_2_3 : S1024x128x16x16.Transposes [1, 0, 2, 3] S128x1024x16x16
  shapeCasts_S128x1024x16x16_S128x262144 : S128x1024x16x16.ShapeCasts S128x262144
  bcast_S_S128x262144 : S_.BroadcastsInDim S128x262144 (![] : Fin 0 → Fin S128x262144.rank)
  bcast_S_S262144 : S_.BroadcastsInDim S262144 (![] : Fin 0 → Fin S262144.rank)
  bcast_S262144_S262144x1_0 : S262144.BroadcastsInDim S262144x1 (![0] : Fin 1 → Fin S262144x1.rank)
  shapeCasts_S128x262144_S128x512x512 : S128x262144.ShapeCasts S128x512x512
  shapeCasts_S262144_S1x512x512 : S262144.ShapeCasts S1x512x512
  shapeCasts_S1x128x512x512_S128x512x512 : S1x128x512x512.ShapeCasts S128x512x512
  inb_S128x16x512_S128x16x512_0_0_0 : ∀ a, (![0, 0, 0] : Fin 3 → Nat) a + S128x16x512.size a ≤ S128x16x512.size a
  h_S128x16x512 : 0 < S128x16x512.numel
  shapeCasts_S128x16x512_S128x16x512 : S128x16x512.ShapeCasts S128x16x512
  inb_S1x16x512_S1x16x512_0_0_0 : ∀ a, (![0, 0, 0] : Fin 3 → Nat) a + S1x16x512.size a ≤ S1x16x512.size a
  h_S1x16x512 : 0 < S1x16x512.numel
  shapeCasts_S1x16x512_S1x16x512 : S1x16x512.ShapeCasts S1x16x512
  broadcasts_S1x16x512_S128x16x512 : S1x16x512.Broadcasts S128x16x512
  shapeCasts_S128x512x512_S1x128x512x512 : S128x512x512.ShapeCasts S1x128x512x512
  scatter_S128x262144_S262144x1_S128x262144_0_1_1_1_wf : ScatterDims.WF S128x262144 S262144x1 S128x262144 [0] [1] [1] 1
  scatter_S262144_S262144x1_S262144_n_0_0_1_wf : ScatterDims.WF S262144 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S128x512x512.size a
  hwx0_0 : ∀ i : grid0.Coords, EltTy.bits .f32 = 32 ∨ (Rect.block (s := S128x512x512) S128x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S1x512x512.size a
  hwx0_1 : ∀ i : grid0.Coords, EltTy.bits .f32 = 32 ∨ (Rect.block (s := S1x512x512) S1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x512.size a ≤ S128x512x512.size a
  hwx0_2 : ∀ i : grid0.Coords, EltTy.bits .f32 = 32 ∨ (Rect.block (s := S128x512x512) S128x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x512.size a ≤ S128x512x512.size a
  hwx0_3 : ∀ i : grid0.Coords, EltTy.bits .f32 = 32 ∨ (Rect.block (s := S128x512x512) S128x16x512.size (cc0_transform_3 i) (hinb0_3 i)).WholeWords (EltTy.packing .f32)

variable [Facts₀]

def scatter_S128x262144_S262144x1_S128x262144_0_1_1_1 : ScatterDims S128x262144 S262144x1 S128x262144 where
  updateWindowDims := [0]
  insertedWindowDims := [1]
  scatterDimsToOperandDims := [1]
  indexVectorDim := 1
  wf := scatter_S128x262144_S262144x1_S128x262144_0_1_1_1_wf
def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

abbrev win0_0 : Pipeline.Window sig grid0 :=
  Pipeline.Window.ofSpec (Memref.whole main_v49) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S128x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S128x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128x16x16 : Shape := ⟨4, ![1024, 128, 16, 16]⟩
abbrev S1x128x512x512 : Shape := ⟨4, ![1, 128, 512, 512]⟩
abbrev S1024x2 : Shape := ⟨2, ![1024, 2]⟩
abbrev S1024x1 : Shape := ⟨2, ![1024, 1]⟩
abbrev S1024 : Shape := ⟨1, ![1024]⟩
abbrev S_ : Shape := ⟨0, ![]⟩
abbrev S1024x1x1 : Shape := ⟨3, ![1024, 1, 1]⟩
abbrev S16 : Shape := ⟨1, ![16]⟩
abbrev S1x16x1 : Shape := ⟨3, ![1, 16, 1]⟩
abbrev S1024x16x1 : Shape := ⟨3, ![1024, 16, 1]⟩
abbrev S1x1x16 : Shape := ⟨3, ![1, 1, 16]⟩
abbrev S1024x1x16 : Shape := ⟨3, ![1024, 1, 16]⟩
abbrev S1024x16x16 : Shape := ⟨3, ![1024, 16, 16]⟩
abbrev S262144 : Shape := ⟨1, ![262144]⟩
abbrev S128x1024x16x16 : Shape := ⟨4, ![128, 1024, 16, 16]⟩
abbrev S128x262144 : Shape := ⟨2, ![128, 262144]⟩
abbrev S262144x1 : Shape := ⟨2, ![262144, 1]⟩
abbrev S1x262144 : Shape := ⟨2, ![1, 262144]⟩

abbrev nBuf : Space → Nat
  | .hbm => 77
  | .vmem => 0
  | .smem => 0
  | _ => 0

abbrev bufTy : (tb : Table) → Fin (tcTables nBuf tb) → BufTy
  | .hbm, ⟨0, _⟩ => ⟨S1024x128x16x16, .f32⟩
  | .hbm, ⟨1, _⟩ => ⟨S1x128x512x512, .f32⟩
  | .hbm, ⟨2, _⟩ => ⟨S1024x2, .i32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024x1x1, .i32⟩
  | .hbm, ⟨20, _⟩ => ⟨S16, .i32⟩
  | .hbm, ⟨21, _⟩ => ⟨S1x16x1, .i32⟩
  | .hbm, ⟨22, _⟩ => ⟨S1024x16x1, .i32⟩
  | .hbm, ⟨23, _⟩ => ⟨S1024x16x1, .i32⟩
  | .hbm, ⟨24, _⟩ => ⟨S1024x16x1, .i32⟩
  | .hbm, ⟨25, _⟩ => ⟨S1024x1x1, .i32⟩
  | .hbm, ⟨26, _⟩ => ⟨S16, .i32⟩
  | .hbm, ⟨27, _⟩ => ⟨S1x1x16, .i32⟩
  | .hbm, ⟨28, _⟩ => ⟨S1024x1x16, .i32⟩
  | .hbm, ⟨29, _⟩ => ⟨S1024x1x16, .i32⟩
  | .hbm, ⟨30, _⟩ => ⟨S1024x1x16, .i32⟩
  | .hbm, ⟨31, _⟩ => ⟨S_, .i32⟩
  | .hbm, ⟨32, _⟩ => ⟨S1024x16x1, .i32⟩
  | .hbm, ⟨33, _⟩ => ⟨S1024x16x1, .i32⟩
  | .hbm, ⟨34, _⟩ => ⟨S1024x16x16, .i32⟩
  | .hbm, ⟨35, _⟩ => ⟨S1024x16x16, .i32⟩
  | .hbm, ⟨36, _⟩ => ⟨S1024x16x16, .i32⟩
  | .hbm, ⟨37, _⟩ => ⟨S262144, .i32⟩
  | .hbm, ⟨38, _⟩ => ⟨S128x1024x16x16, .f32⟩
  | .hbm, ⟨39, _⟩ => ⟨S128x262144, .f32⟩
  | .hbm, ⟨40, _⟩ => ⟨S_, .f32⟩
  | .hbm, ⟨41, _⟩ => ⟨S128x262144, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S128x262144, .f32⟩
  | .hbm, ⟨51, _⟩ => ⟨S_, .f32⟩
  | .hbm, ⟨52, _⟩ => ⟨S262144, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S_, .f32⟩
  | .hbm, ⟨62, _⟩ => ⟨S262144, .f32⟩
  | .hbm, ⟨63, _⟩ => ⟨S262144, .f32⟩
  | .hbm, ⟨64, _⟩ => ⟨S_, .f32⟩
  | .hbm, ⟨65, _⟩ => ⟨S262144, .f32⟩
  | .hbm, ⟨66, _⟩ => ⟨S262144, .f32⟩
  | .hbm, ⟨67, _⟩ => ⟨S1x262144, .f32⟩
  | .hbm, ⟨68, _⟩ => ⟨S128x262144, .f32⟩
  | .hbm, ⟨69, _⟩ => ⟨S128x262144, .f32⟩
  | .hbm, ⟨70, _⟩ => ⟨S128x262144, .f32⟩
  | .hbm, ⟨71, _⟩ => ⟨S_, .f32⟩
  | .hbm, ⟨72, _⟩ => ⟨S262144, .f32⟩
  | .hbm, ⟨73, _⟩ => ⟨S262144, .i1⟩
  | .hbm, ⟨74, _⟩ => ⟨S128x262144, .i1⟩
  | .hbm, ⟨75, _⟩ => ⟨S128x262144, .f32⟩
  | .hbm, ⟨76, _⟩ => ⟨S1x128x512x512, .f32⟩
  | _, _ => ⟨S1024x128x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  slices_S1024x2_S1024x1_0_1 : S1024x2.Slices ![0, 1] S1024x1
  bcast_S1024_S1024x1x1_0 : S1024.BroadcastsInDim S1024x1x1 (![0] : Fin 1 → Fin S1024x1x1.rank)
  bcast_S16_S1x16x1_1 : S16.BroadcastsInDim S1x16x1 (![1] : Fin 1 → Fin S1x16x1.rank)
  bcast_S1024x1x1_S1024x16x1_0_1_2 : S1024x1x1.BroadcastsInDim S1024x16x1 (![0, 1, 2] : Fin 3 → Fin S1024x16x1.rank)
  bcast_S1x16x1_S1024x16x1_0_1_2 : S1x16x1.BroadcastsInDim S1024x16x1 (![0, 1, 2] : Fin 3 → Fin S1024x16x1.rank)
  bcast_S16_S1x1x16_2 : S16.BroadcastsInDim S1x1x16 (![2] : Fin 1 → Fin S1x1x16.rank)
  bcast_S1024x1x1_S1024x1x16_0_1_2 : S1024x1x1.BroadcastsInDim S1024x1x16 (![0, 1, 2] : Fin 3 → Fin S1024x1x16.rank)
  bcast_S1x1x16_S1024x1x16_0_1_2 : S1x1x16.BroadcastsInDim S1024x1x16 (![0, 1, 2] : Fin 3 → Fin S1024x1x16.rank)
  bcast_S_S1024x16x1 : S_.BroadcastsInDim S1024x16x1 (![] : Fin 0 → Fin S1024x16x1.rank)
  bcast_S1024x16x1_S1024x16x16_0_1_2 : S1024x16x1.BroadcastsInDim S1024x16x16 (![0, 1, 2] : Fin 3 → Fin S1024x16x16.rank)
  bcast_S1024x1x16_S1024x16x16_0_1_2 : S1024x1x16.BroadcastsInDim S1024x16x16 (![0, 1, 2] : Fin 3 → Fin S1024x16x16.rank)
  shapeCasts_S1024x16x16_S262144 : S1024x16x16.ShapeCasts S262144
  transposes_S1024x128x16x16_S128x1024x16x16_1_0_2_3 : S1024x128x16x16.Transposes [1, 0, 2, 3] S128x1024x16x16
  shapeCasts_S128x1024x16x16_S128x262144 : S128x1024x16x16.ShapeCasts S128x262144
  bcast_S_S128x262144 : S_.BroadcastsInDim S128x262144 (![] : Fin 0 → Fin S128x262144.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144_S1x262144_1 : S262144.BroadcastsInDim S1x262144 (![1] : Fin 1 → Fin S1x262144.rank)
  bcast_S1x262144_S128x262144_0_1 : S1x262144.BroadcastsInDim S128x262144 (![0, 1] : Fin 2 → Fin S128x262144.rank)
  shapeCasts_S1x128x512x512_S128x262144 : S1x128x512x512.ShapeCasts S128x262144
  bcast_S262144_S128x262144_1 : S262144.BroadcastsInDim S128x262144 (![1] : Fin 1 → Fin S128x262144.rank)
  shapeCasts_S128x262144_S1x128x512x512 : S128x262144.ShapeCasts S1x128x512x512
  scatter_S128x262144_S262144x1_S128x262144_0_1_1_1_wf : ScatterDims.WF S128x262144 S262144x1 S128x262144 [0] [1] [1] 1
  scatter_S262144_S262144x1_S262144_n_0_0_1_wf : ScatterDims.WF S262144 S262144x1 S262144 [] [0] [0] 1

variable [Facts₀]

def scatter_S128x262144_S262144x1_S128x262144_0_1_1_1 : ScatterDims S128x262144 S262144x1 S128x262144 where
  updateWindowDims := [0]
  insertedWindowDims := [1]
  scatterDimsToOperandDims := [1]
  indexVectorDim := 1
  wf := scatter_S128x262144_S262144x1_S128x262144_0_1_1_1_wf
def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

class Facts : Prop extends Facts₀ where

variable [Facts]
-- ==== Proof.Blend.lean ====
/-
  The blend, as mathematics, over literal shapes and with no program in sight.

  A canvas of 128 channels and 512 x 512 pixels is filled from two scatter sums: `ssum`, per channel and per flat pixel position
  p = h * 512 + w the sum of the block entries that landed there, and `cnt`, per flat pixel position how many blocks cover it.
  One pixel of one channel ends as

      pixel s n b  =  if n > 0 then s / max n 1 else b,

  `s` the pixel's sum, `n` its cover count and `b` the value of the original image there.  `canvas` is that function over arrays laid
  out [128, 512, 512] (the count as one plane [1, 512, 512] shared by all channels), `result` the same function over the flat
  scatter sums [128, 262144] and [262144] and the original image [1, 128, 512, 512].  The two agree once the flat sums are re-laid
  as planes and the canvas is given its leading unit axis: a re-laying keeps each entry's row-major position, and position
  (c * 512 + h) * 512 + w of [128, 512, 512] is position c * 262144 + (h * 512 + w) of [128, 262144] (`relaid_canvas`).
  No law of the extended reals is used: the two sides apply the same operations to the same three numbers.
-/
import Idealize.ShloMosaic.PureOps.Ideal
import Idealize.ShloMosaic.Lib.ValueIdx
import Idealize.ShloMosaic.Lib.Pipeline.Value

noncomputable section

namespace Cert.Blend

open Idealize.ShloMosaic Idealize.ShloMosaic.ValueIdx

variable {F : FTy → Type} [FloatOps F]

/-- The flat pixel positions. -/
abbrev Flat : Shape := ⟨1, ![262144]⟩
/-- Channels by flat pixel positions. -/
abbrev ChanFlat : Shape := ⟨2, ![128, 262144]⟩
/-- Channels by rows by columns. -/
abbrev Canvas : Shape := ⟨3, ![128, 512, 512]⟩
/-- One plane of rows by columns, under a unit axis. -/
abbrev Plane : Shape := ⟨3, ![1, 512, 512]⟩
/-- The image as the programs take and return it. -/
abbrev Image : Shape := ⟨4, ![1, 128, 512, 512]⟩

/-- One pixel of one channel: where at least one block covers the pixel, the sum of the covering blocks' entries over their number
    (the number is at least one there, and the divisor `max n 1` is spelt as both programs spell it); elsewhere the original image. -/
def pixel (s n b : F .f32) : F .f32 :=
  Scalar.select (FloatOps.cmpf .ogt n (FloatOps.ofBits .f32 0x00000000#32))
    (FloatOps.divf s (FloatOps.maximumf n (FloatOps.ofBits .f32 0x3F800000#32))) b

/-- Row `h`, column `w` in the flattened plane. -/
def flatPos (h w : Fin 512) : Fin 262144 := ⟨h.val * 512 + w.val, by have := h.isLt; have := w.isLt; omega⟩

theorem flatPos_val (h w : Fin 512) : (flatPos h w).val = h.val * 512 + w.val := rfl

/-- The blend over planes: every channel's pixel from that channel's sum, the shared count plane, and the original image. -/
def canvas (s3 : Canvas.Idx → F .f32) (n3 : Plane.Idx → F .f32) (b3 : Canvas.Idx → F .f32) : Canvas.Idx → F .f32 :=
  fun j => pixel (s3 j) (n3 (ix3 0 (j 1) (j 2))) (b3 j)

theorem canvas_apply (s3 : Canvas.Idx → F .f32) (n3 : Plane.Idx → F .f32) (b3 : Canvas.Idx → F .f32) (c : Fin 128) (h w : Fin 512) :
    canvas s3 n3 b3 (ix3 c h w) = pixel (s3 (ix3 c h w)) (n3 (ix3 0 h w)) (b3 (ix3 c h w)) := rfl

/-- The blend over the flat scatter sums: the image the programs return. -/
def result (ssum : ChanFlat.Idx → F .f32) (cnt : Flat.Idx → F .f32) (base : Image.Idx → F .f32) : Image.Idx → F .f32 :=
  fun i => pixel (ssum (ix2 (i 1) (flatPos (i 2) (i 3)))) (cnt (ix1 (flatPos (i 2) (i 3)))) (base i)

/-- The canvas of the re-laid sums, given its leading unit axis, is the result over the flat sums: each re-laying keeps row-major
    positions, and the positions are equal by arithmetic. -/
theorem relaid_canvas (ssum : ChanFlat.Idx → F .f32) (cnt : Flat.Idx → F .f32) (base : Image.Idx → F .f32)
    (h1 : ChanFlat.ShapeCasts Canvas) (h2 : Flat.ShapeCasts Plane) (h3 : Image.ShapeCasts Canvas) (h4 : Canvas.ShapeCasts Image) :
    shapeCast Image (canvas (shapeCast Canvas ssum h1) (shapeCast Plane cnt h2) (shapeCast Canvas base h3)) h4
      = result ssum cnt base := by
  funext i
  obtain ⟨z, c, h, w, rfl⟩ : ∃ (z : Fin 1) (c : Fin 128) (h w : Fin 512), i = ix4 z c h w := ⟨i 0, i 1, i 2, i 3, eq_ix4 i⟩
  have hz : z.val < 1 := z.isLt
  have hc : c.val < 128 := c.isLt
  have hh : h.val < 512 := h.isLt
  have hw : w.val < 512 := w.isLt
  have e4 : ∀ X : Canvas.Idx → F .f32, shapeCast Image X h4 (ix4 z c h w) = X (ix3 c h w) := fun X =>
    shapeCast_apply X h4 _ _ (by
      rw [Shape.rowMajor_val_three, Shape.rowMajor_val_four]
      show (c.val * 512 + h.val) * 512 + w.val = ((z.val * 128 + c.val) * 512 + h.val) * 512 + w.val
      omega)
  have e1 : shapeCast Canvas ssum h1 (ix3 c h w) = ssum (ix2 c (flatPos h w)) :=
    shapeCast_apply ssum h1 _ _ (by
      rw [Shape.rowMajor_val_two, Shape.rowMajor_val_three]
      show c.val * 262144 + (h.val * 512 + w.val) = (c.val * 512 + h.val) * 512 + w.val
      omega)
  have e2 : shapeCast Plane cnt h2 (ix3 0 h w) = cnt (ix1 (flatPos h w)) :=
    shapeCast_apply cnt h2 _ _ (by
      rw [Shape.rowMajor_val_one, Shape.rowMajor_val_three]
      show h.val * 512 + w.val = (0 * 512 + h.val) * 512 + w.val
      omega)
  have e3 : shapeCast Canvas base h3 (ix3 c h w) = base (ix4 z c h w) :=
    shapeCast_apply base h3 _ _ (by
      rw [Shape.rowMajor_val_four, Shape.rowMajor_val_three]
      show ((z.val * 128 + c.val) * 512 + h.val) * 512 + w.val = (c.val * 512 + h.val) * 512 + w.val
      omega)
  rw [e4, canvas_apply, e1, e2, e3]
  rfl

end Cert.Blend

end
-- ==== Proof.ReferenceValue.lean ====
/-
  The reference's result is the blend of its two scatter sums.  After the scatters the reference divides each channel's sums by
  `max count 1` (the count broadcast over the channels), selects by `count > 0` between that quotient and the original image
  re-laid [128, 262144], and re-lays the selection [1, 128, 512, 512].  Read at (0, c, h, w) every stage is read at one index of its
  operands — flat position h * 512 + w of channel c —, and the original image comes back at (0, c, h, w) itself: two re-layings that
  undo each other.  At the exact instance the host's quotient and the kernel's are one function, so this is `Blend.result` of the
  two scatter sums, which are never opened here.
-/
import proofs.«159439_j41420664602706_1_alg».proof.Proof.ReferenceRead
import proofs.«159439_j41420664602706_1_alg».proof.Proof.Blend
import Idealize.ShloMosaic.Lib.ValueIdx

noncomputable section

namespace Cert.ReferenceIdeal.Blended

open Idealize.ShloMosaic Idealize.ShloMosaic.ValueIdx Cert.ReferenceIdeal Cert.ReferenceIdeal.Gen Cert.ReferenceIdeal.ReadP

/-- The reference's result, as a function of the argument arrays, is the blend of the channel sums, the cover counts and the
    original image. -/
theorem result_eq (x0 : (⟨S1024x128x16x16, .f32⟩ : BufTy).Contents (Elt Ideal)) (x1 : (⟨S1x128x512x512, .f32⟩ : BufTy).Contents (Elt Ideal))
    (x2 : (⟨S1024x2, .i32⟩ : BufTy).Contents (Elt Ideal)) :
    val_main_v58 (F := Ideal) x0 x1 x2
      = Blend.result (F := Ideal) (val_main_v39 (F := Ideal) x0 x2) (val_main_v48 (F := Ideal) x2) x1 := by
  funext i
  obtain ⟨z, c, h, w, rfl⟩ : ∃ (z : Fin 1) (c : Fin 128) (h w : Fin 512), i = ix4 z c h w := ⟨i 0, i 1, i 2, i 3, eq_ix4 i⟩
  have hz : z.val < 1 := z.isLt
  have hc : c.val < 128 := c.isLt
  have hh : h.val < 512 := h.isLt
  have hw : w.val < 512 := w.isLt
  -- the last re-laying reads channel c at flat position h * 512 + w
  have i58 : idx_main_v58 (ix4 z c h w) = ix2 c (Blend.flatPos h w) := by
    funext a; apply Fin.ext
    match a with
    | ⟨0, _⟩ => show (((z.val * 128 + c.val) * 512 + h.val) * 512 + w.val) / 262144 = c.val; omega
    | ⟨1, _⟩ => show (((z.val * 128 + c.val) * 512 + h.val) * 512 + w.val) % 262144 = h.val * 512 + w.val; omega
  -- the mask and the divisor, broadcast over the channels, read the flat position alone
  have imask : idx_main_call0_v0 (ix2 c (Blend.flatPos h w)) = ix1 (Blend.flatPos h w) := by
    funext a; apply Fin.ext
    match a with
    | ⟨0, _⟩ => rfl
  have idiv : idx_main_v51 (idx_main_v52 (ix2 c (Blend.flatPos h w))) = ix1 (Blend.flatPos h w) := by
    funext a; apply Fin.ext
    match a with
    | ⟨0, _⟩ => rfl
  -- the original image, re-laid flat and read there, is the image at (0, c, h, w)
  have ibase : idx_main_v54 (ix2 c (Blend.flatPos h w)) = ix4 z c h w := by
    funext a; apply Fin.ext
    match a with
    | ⟨0, _⟩ => show 0 = z.val; omega
    | ⟨1, _⟩ => show (c.val * 262144 + (h.val * 512 + w.val)) / 262144 % 128 = c.val; omega
    | ⟨2, _⟩ => show (c.val * 262144 + (h.val * 512 + w.val)) / 512 % 512 = h.val; omega
    | ⟨3, _⟩ => show (c.val * 262144 + (h.val * 512 + w.val)) % 512 = w.val; omega
  rw [val_main_v58_apply, i58, val_main_v57_apply, val_main_call0_v0_apply, imask, val_main_v56_apply, val_main_v55_apply,
    val_main_cst_11_apply, val_main_v53_apply, val_main_v52_apply, val_main_v51_apply, idiv, val_main_v50_apply,
    val_main_v49_apply, val_main_cst_10_apply, val_main_v54_apply, ibase]
  rfl

end Cert.ReferenceIdeal.Blended

end
-- ==== Proof.Entry.lean ====
/-
  What the region finds.  Before the region the kernel's @main computes, on the host, the same two scatter sums as the reference,
  operation for operation: the channel sums [128, 262144] and the cover counts [262144].  It then re-lays the sums [128, 512, 512],
  the counts [1, 512, 512] and the original image [128, 512, 512]; those three arrays are what the region's three input windows
  stage.  Here each is read back from @main's host lines as that re-laying — the scatter sums under the names of the reference's
  own stages, of which they are the same terms —, so that nothing later opens a scatter.
-/
import proofs.«159439_j41420664602706_1_alg».proof.Proof.Gen.KernelIdeal.Frame
import proofs.«159439_j41420664602706_1_alg».proof.Proof.ReferenceRead
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The channel sums as the kernel's host lines compute them from the blocks and the block corners. -/
abbrev sums (c : Dev nD) : FVec F S128x262144 .f32 :=
  Cert.ReferenceIdeal.ReadP.val_main_v39 (F := F) (m ((c : Thread nD τ).loc main_arg0)) (m ((c : Thread nD τ).loc main_arg2))

/-- The cover counts as the kernel's host lines compute them from the block corners. -/
abbrev counts (c : Dev nD) : FVec F S262144 .f32 :=
  Cert.ReferenceIdeal.ReadP.val_main_v48 (F := F) (m ((c : Thread nD τ).loc main_arg2))

set_option maxHeartbeats 4000000 in
/-- Window 0's array: the channel sums re-laid [128, 512, 512]. -/
theorem found_sums (c : Dev nD) :
    V m c main_v49 = shapeCast S128x512x512 (sums m c) shapeCasts_S128x262144_S128x512x512 := by
  show StableHlo.after hostOps0 (fun b => m (c, b)) (Proc.devRef .tc main_v49) = _
  after_results_simp
  rfl

set_option maxHeartbeats 4000000 in
/-- Window 1's array: the cover counts re-laid [1, 512, 512]. -/
theorem found_counts (c : Dev nD) :
    V m c main_v50 = shapeCast S1x512x512 (counts m c) shapeCasts_S262144_S1x512x512 := by
  show StableHlo.after hostOps0 (fun b => m (c, b)) (Proc.devRef .tc main_v50) = _
  after_results_simp
  rfl

set_option maxHeartbeats 4000000 in
/-- Window 2's array: the original image without its leading unit axis. -/
theorem found_image (c : Dev nD) :
    V m c main_v51 = shapeCast S128x512x512 (m ((c : Thread nD τ).loc main_arg1)) shapeCasts_S1x128x512x512_S128x512x512 := by
  show StableHlo.after hostOps0 (fun b => m (c, b)) (Proc.devRef .tc main_v51) = _
  after_results_simp
  rfl

end Cert.KernelIdeal.Entry

end
-- ==== Proof.Payload.lean ====
/-
  What one grid point computes.  The kernel body loads three blocks of 16 canvas rows — the channel sums [128, 16, 512], the cover
  counts [1, 16, 512] and the original image [128, 16, 512] —, broadcasts the count block along the channel axis, and stores
  `select (count > 0) (sum / max count 1) original`.  Read at channel `c`, row `r` of the block and column `w`, that is
  `Blend.pixel` of the sum and the original at (c, r, w) and the count at (0, r, w): the body's shape casts are between equal shapes
  and drop, and a broadcast along a unit axis reads the operand at coordinate 0 of that axis.
-/
import proofs.«159439_j41420664602706_1_alg».proof.Proof.Gen.KernelIdeal.Skeleton
import proofs.«159439_j41420664602706_1_alg».proof.Proof.Blend
import Idealize.ShloMosaic.Lib.Pipeline.Value
import Idealize.ShloMosaic.Lib.ValueIdx

noncomputable section

namespace Cert.KernelIdeal.BlendBody

open Idealize.ShloMosaic Idealize.ShloMosaic.ValueIdx Cert.KernelIdeal Cert.KernelIdeal.Gen

variable {F : FTy → Type} [FloatOps F]

/-- The count block broadcast along the channel axis, read at (c, r, w), is the count block at (0, r, w). -/
theorem count_broadcast (v2 : Vec F S1x16x512 .f32) (c : Fin 128) (r : Fin 16) (w : Fin 512) :
    broadcastTo S128x16x512 v2 broadcasts_S1x16x512_S128x16x512 (ix3 c r w) = v2 (ix3 0 r w) :=
  broadcastTo_apply v2 broadcasts_S1x16x512_S128x16x512 (ix3 c r w) (ix3 0 r w) (fun a => match a with
    | ⟨0, _⟩ => by show (0 : Nat) = if (1 : Nat) = 1 then 0 else c.val; rw [if_pos rfl]
    | ⟨1, _⟩ => by show r.val = if (16 : Nat) = 1 then 0 else r.val; rw [if_neg (by decide)]
    | ⟨2, _⟩ => by show w.val = if (512 : Nat) = 1 then 0 else w.val; rw [if_neg (by decide)])

/-- The stored value, entry by entry, with the broadcast still in place. -/
theorem payload_eq (v0 : Vec F S128x16x512 .f32) (v2 : Vec F S1x16x512 .f32) (v4 : Vec F S128x16x512 .f32) :
    k0_pay1 v0 v2 v4 = fun j => Blend.pixel (v0 j) (broadcastTo S128x16x512 v2 broadcasts_S1x16x512_S128x16x512 j) (v4 j) := by
  unfold k0_pay1
  simp only [shapeCast_self]
  rfl

/-- The stored value at channel `c`, block row `r`, column `w`. -/
theorem payload_apply (v0 : Vec F S128x16x512 .f32) (v2 : Vec F S1x16x512 .f32) (v4 : Vec F S128x16x512 .f32)
    (c : Fin 128) (r : Fin 16) (w : Fin 512) :
    k0_pay1 v0 v2 v4 (ix3 c r w) = Blend.pixel (v0 (ix3 c r w)) (v2 (ix3 0 r w)) (v4 (ix3 c r w)) := by
  rw [payload_eq]
  show Blend.pixel (v0 (ix3 c r w)) (broadcastTo S128x16x512 v2 broadcasts_S1x16x512_S128x16x512 (ix3 c r w)) (v4 (ix3 c r w)) = _
  rw [count_broadcast]

end Cert.KernelIdeal.BlendBody

end
-- ==== Proof.Region.lean ====
/-
  The region.  The grid has 32 points; at point `t` every window is at block (0, t, 0): the three inputs' blocks and the output's
  block are canvas rows 16 t … 16 t + 15, all channels, all columns (the count window has one plane in place of the channels).
  So what point `t` writes back is the restriction to those rows of ONE function of the three arrays the region finds,
  `Blend.canvas`: entry (c, r, w) of the block is the pixel of channel c at row 16 t + r, column w, and the count it reads is the
  count plane's entry at that row and column.  The 32 row bands tile the canvas (row h lies in band h / 16), so after the run the
  output array is `Blend.canvas` of the three input arrays everywhere.
-/
import proofs.«159439_j41420664602706_1_alg».proof.Proof.Gen.KernelIdeal.Frame
import proofs.«159439_j41420664602706_1_alg».proof.Proof.Payload
import proofs.«159439_j41420664602706_1_alg».proof.Proof.Blend
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

theorem zero_offsets : (![0, 0, 0] : Fin 3 → Nat) = fun _ => 0 := funext fun a => by fin_cases a <;> rfl

/-- Every window's block index at point `t` is (0, t, 0): decided over the 32 points. -/
theorem block_index : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- Every row band is some point's: band `b` is point `b`'s. -/
theorem band_onto : ∀ b : Fin 32, ∃ t : Fin cfg0.N, win0_3.index t = ![0, b.val, 0] :=
  (by decide +kernel : ∀ b : Fin 32, ∃ t : Fin grid0.N, win0_3.index t = ![0, b.val, 0])

/-- Row `r` of point `t`'s band, as a canvas row. -/
def bandRow (t : Fin cfg0.N) (r : Fin 16) : Fin 512 :=
  ⟨t.val * 16 + r.val, by have ht : t.val < 32 := lt_of_lt_of_eq t.isLt N_0; have hr := r.isLt; omega⟩

theorem bandRow_val (t : Fin cfg0.N) (r : Fin 16) : (bandRow t r).val = t.val * 16 + r.val := rfl

/-- Entry (c, r, w) of point `t`'s block of the sums' window is the array's entry (c, 16 t + r, w); -/
theorem emb_sums (t : Fin cfg0.N) (p : Fin 128) (r : Fin 16) (q : Fin 512) :
    ((cfg0.win 0).blk t).view.emb (ix3 p r q) = ix3 p (bandRow t r) q := by
  obtain ⟨a0, a1, a2, -⟩ := block_index t
  funext a; apply Fin.ext
  match a with
  | ⟨0, _⟩ => show win0_0.index t (0 : Fin 3) * 128 + 1 * p.val = p.val; omega
  | ⟨1, _⟩ => show win0_0.index t (1 : Fin 3) * 16 + 1 * r.val = t.val * 16 + r.val; omega
  | ⟨2, _⟩ => show win0_0.index t (2 : Fin 3) * 512 + 1 * q.val = q.val; omega

/-- of the counts' window, the count plane's entry (0, 16 t + r, w); -/
theorem emb_counts (t : Fin cfg0.N) (r : Fin 16) (q : Fin 512) :
    ((cfg0.win 1).blk t).view.emb (ix3 0 r q) = ix3 0 (bandRow t r) q := by
  obtain ⟨-, -, -, b0, b1, b2, -⟩ := block_index t
  funext a; apply Fin.ext
  match a with
  | ⟨0, _⟩ => show win0_1.index t (0 : Fin 3) * 1 + 1 * 0 = 0; omega
  | ⟨1, _⟩ => show win0_1.index t (1 : Fin 3) * 16 + 1 * r.val = t.val * 16 + r.val; omega
  | ⟨2, _⟩ => show win0_1.index t (2 : Fin 3) * 512 + 1 * q.val = q.val; omega

/-- of the image's window, (c, 16 t + r, w); -/
theorem emb_image (t : Fin cfg0.N) (p : Fin 128) (r : Fin 16) (q : Fin 512) :
    ((cfg0.win 2).blk t).view.emb (ix3 p r q) = ix3 p (bandRow t r) q := by
  obtain ⟨-, -, -, -, -, -, c0, c1, c2, -⟩ := block_index t
  funext a; apply Fin.ext
  match a with
  | ⟨0, _⟩ => show win0_2.index t (0 : Fin 3) * 128 + 1 * p.val = p.val; omega
  | ⟨1, _⟩ => show win0_2.index t (1 : Fin 3) * 16 + 1 * r.val = t.val * 16 + r.val; omega
  | ⟨2, _⟩ => show win0_2.index t (2 : Fin 3) * 512 + 1 * q.val = q.val; omega

/-- and of the output window, (c, 16 t + r, w). -/
theorem emb_out (t : Fin cfg0.N) (p : Fin 128) (r : Fin 16) (q : Fin 512) :
    ((cfg0.win 3).blk t).view.emb (ix3 p r q) = ix3 p (bandRow t r) q := by
  obtain ⟨-, -, -, -, -, -, -, -, -, d0, d1, d2⟩ := block_index t
  funext a; apply Fin.ext
  match a with
  | ⟨0, _⟩ => show win0_3.index t (0 : Fin 3) * 128 + 1 * p.val = p.val; omega
  | ⟨1, _⟩ => show win0_3.index t (1 : Fin 3) * 16 + 1 * r.val = t.val * 16 + r.val; omega
  | ⟨2, _⟩ => show win0_3.index t (2 : Fin 3) * 512 + 1 * q.val = q.val; omega

/-- The pixel of the three input blocks' entries is the canvas function of the three arrays, read where the output block's entry
    lies: over any three arrays. -/
theorem band_pixel (A : S128x512x512.Idx → F .f32) (B : S1x512x512.Idx → F .f32) (C : S128x512x512.Idx → F .f32)
    (t : Fin cfg0.N) (p : Fin 128) (r : Fin 16) (q : Fin 512) :
    Blend.pixel (A (((cfg0.win 0).blk t).view.emb (ix3 p r q))) (B (((cfg0.win 1).blk t).view.emb (ix3 0 r q)))
        (C (((cfg0.win 2).blk t).view.emb (ix3 p r q)))
      = Blend.canvas A B C (((cfg0.win 3).blk t).view.emb (ix3 p r q)) := by
  rw [emb_sums, emb_counts, emb_image, emb_out, Blend.canvas_apply]

/-- WHAT POINT `t` WRITES BACK is its row band of the canvas function of the arrays the region finds. -/
theorem flushed_eq (c : Dev nD) (t : Fin cfg0.N) :
    (dats m 0 c).flushed 3 t
      = ((cfg0.win 3).blk t).view.read (Elt F) (Blend.canvas (V m c main_v49) (V m c main_v50) (V m c main_v51)) := by
  show (cfg0.win 3).cut (grid0.coords t) ((dats m 0 c).after 3 t) = _
  rw [after0_3]
  unfold out0_3
  rw [View.canon_unit_zero zero_offsets]
  simp only [View.ld_unit_zero (S := S128x16x512) zero_offsets, View.ld_unit_zero (S := S1x16x512) zero_offsets]
  funext j
  obtain ⟨p, r, q, rfl⟩ : ∃ (p : Fin 128) (r : Fin 16) (q : Fin 512), j = ix3 p r q := ⟨j 0, j 1, j 2, eq_ix3 j⟩
  refine (BlendBody.payload_apply (iblk m c 0 t) (iblk m c 1 t) (iblk m c 2 t) p r q).trans ?_
  exact band_pixel (V m c main_v49) (V m c main_v50) (V m c main_v51) t p r q

/-- An index of the canvas lies in point `t`'s block iff each coordinate lies in the block's range on its axis. -/
theorem mem_band (t : Fin cfg0.N) (i : S128x512x512.Idx) :
    i ∈ ((cfg0.win 3).blk t).view.set ↔ ∀ a : Fin 3, win0_3.index t a * S128x16x512.size a ≤ (i a).val
      ∧ (i a).val < win0_3.index t a * S128x16x512.size a + S128x16x512.size a := by
  show i ∈ ((View.whole main_v52).slice (win0_3.rect t)).set ↔ _
  rw [View.set_slice_whole, Rect.mem_set_unit]
  exact Iff.rfl

/-- The bands tile the canvas: row h lies in band h / 16. -/
theorem bands_cover (i : S128x512x512.Idx) :
    ∃ t : Fin cfg0.N, (cfg0.win 3).flush t = true ∧ i ∈ ((cfg0.win 3).blk t).view.set := by
  have h0 : (i 0).val < 128 := (i 0).isLt
  have h1 : (i 1).val < 512 := (i 1).isLt
  have h2 : (i 2).val < 512 := (i 2).isLt
  obtain ⟨t, ht⟩ := band_onto ⟨(i 1).val / 16, by omega⟩
  have q0 : win0_3.index t (0 : Fin 3) = 0 := congrFun ht 0
  have q1 : win0_3.index t (1 : Fin 3) = (i 1).val / 16 := congrFun ht 1
  have q2 : win0_3.index t (2 : Fin 3) = 0 := congrFun ht 2
  refine ⟨t, flush0_3 t, ?_⟩
  rw [mem_band]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 16 ≤ (i 1).val ∧ (i 1).val < win0_3.index t (1 : Fin 3) * 16 + 16; omega
  | ⟨2, _⟩ => show win0_3.index t (2 : Fin 3) * 512 ≤ (i 2).val ∧ (i 2).val < win0_3.index t (2 : Fin 3) * 512 + 512; omega

/-- THE OUTPUT ARRAY after the run: the canvas function of the three arrays the region finds. -/
theorem array_after (c : Dev nD) :
    (dats m 0 c).arrAt 3 cfg0.N = Blend.canvas (V m c main_v49) (V m c main_v50) (V m c main_v51) :=
  (dats m 0 c).arrAt_eq_of_cover 3 _ (fun t _ => flushed_eq m c t) bands_cover

end Cert.KernelIdeal.Region

end
-- ==== Proof.KernelValue.lean ====
/-
  The kernel's result.  After the region one host line re-lays the output array [128, 512, 512] as [1, 128, 512, 512]; that is what
  @main returns.  The output array is the canvas function of the three arrays the region found (the region module), those are the
  re-laid channel sums, cover counts and original image (the entry module), and the canvas of re-laid sums under a leading unit
  axis is the blend over the flat sums (`Blend.relaid_canvas`).  So every execution of the kernel's @main ends with its result at
  `Blend.result` of the channel sums, the cover counts and the original image, its arguments unchanged.
-/
import proofs.«159439_j41420664602706_1_alg».proof.Proof.Gen.KernelIdeal.Frame
import proofs.«159439_j41420664602706_1_alg».proof.Proof.Entry
import proofs.«159439_j41420664602706_1_alg».proof.Proof.Region
import proofs.«159439_j41420664602706_1_alg».proof.Proof.Blend
import Idealize.ShloMosaic.Lib.StableHlo.Run

set_option maxRecDepth 16384

noncomputable section

namespace Cert.KernelIdeal.Blended

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The host line after the region re-lays the region's output array. -/
theorem tail_result (c : Dev nD) :
    Pipeline.afterTail₀ cfgs (dats m) 0 (V0 m) [hostOps1] c main_v53
      = shapeCast S1x128x512x512 ((dats m 0 c).arrAt 3 cfg0.N) shapeCasts_S128x512x512_S1x128x512x512 := by
  unfold Pipeline.afterTail₀
  show StableHlo.after hostOps1 _ (Proc.devRef .tc main_v53) = _
  after_results
  exact congrArg (fun x => shapeCast S1x128x512x512 x shapeCasts_S128x512x512_S1x128x512x512)
    (Pipeline.withArrays_arr spec0 launch0.win.arr_inj c _ _ 3)

/-- What @main returns: the blend of the channel sums, the cover counts and the original image. -/
theorem result_after (c : Dev nD) :
    Pipeline.afterTail₀ cfgs (dats m) 0 (V0 m) [hostOps1] c main_v53
      = Blend.result (Entry.sums m c) (Entry.counts m c) (m ((c : Thread nD τ).loc main_arg1)) := by
  rw [tail_result, Region.array_after, Entry.found_sums, Entry.found_counts, Entry.found_image]
  exact Blend.relaid_canvas _ _ _ _ _ _ _

/-- The kernel's run: every weakly fair execution of @main terminates with the result at the blend and the arguments unchanged. -/
theorem run : θ_run defs (onTc (τ := τ) (main (F := F))) ⟨m, fun _ => 0, ρ⟩ (fun r => ∀ c : Dev nD,
      r.2.mem ((c.tc : Thread nD τ).loc main_v53)
        = Blend.result (Entry.sums m c) (Entry.counts m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v53 (Pipeline.mem_restRefs_of main_v53 (by decide) (by decide))).trans (result_after m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Blended

end
-- ==== Proof.lean ====
/-
  Scatter-averaged blocks blended into an image: the kernel against its jnp reference, over the extended reals.

  1024 blocks of 128 channels and 16 x 16 pixels are scatter-added into a 512 x 512 canvas at given corners, with the number of
  blocks covering each pixel counted beside them; a covered pixel ends as the sum over the count, an uncovered one as the original
  image.  Both programs compute the two scatter sums on the host by the same operations, so they are the same function of the
  arguments and are carried here under one name, never opened.  They differ in where the last step runs: the reference divides,
  compares and selects on the host over arrays laid out [128, 262144]; the kernel re-lays the sums [128, 512, 512] and the counts
  [1, 512, 512] and does that step in a pallas_call over 32 bands of 16 canvas rows, then re-lays the canvas [1, 128, 512, 512].

  Pixel by pixel both apply `select (count > 0) (sum / max count 1) original` to the same three numbers (`Blend.pixel`): the
  kernel's band blocks are restrictions of one canvas function and tile the canvas, the re-layings keep row-major positions, and
  at the exact instance the kernel's quotient and the host's are one function.  No law of the extended reals beyond that is used,
  and the precondition (finite inputs) is not needed for the value.  The ideal pass rewrote nothing, so `preserves` is `True`.
  The kernel programs' frames are the generated ones; the reference's frame is its run with the result dropped.
-/
import proofs.«159439_j41420664602706_1_alg».proof.Defs
import proofs.«159439_j41420664602706_1_alg».proof.Proof.Gen.Kernel
import proofs.«159439_j41420664602706_1_alg».proof.Proof.Gen.Kernel.Skeleton
import proofs.«159439_j41420664602706_1_alg».proof.Proof.Gen.Kernel.Launch
import proofs.«159439_j41420664602706_1_alg».proof.Proof.Gen.Kernel.Points
import proofs.«159439_j41420664602706_1_alg».proof.Proof.Gen.Kernel.Frame
import proofs.«159439_j41420664602706_1_alg».proof.Proof.Gen.KernelIdeal
import proofs.«159439_j41420664602706_1_alg».proof.Proof.Gen.KernelIdeal.Skeleton
import proofs.«159439_j41420664602706_1_alg».proof.Proof.Gen.KernelIdeal.Launch
import proofs.«159439_j41420664602706_1_alg».proof.Proof.Gen.KernelIdeal.Points
import proofs.«159439_j41420664602706_1_alg».proof.Proof.Gen.KernelIdeal.Frame
import proofs.«159439_j41420664602706_1_alg».proof.Proof.Gen.ReferenceIdeal
import proofs.«159439_j41420664602706_1_alg».proof.Proof.Gen.Pre_finite_inputs
import proofs.«159439_j41420664602706_1_alg».proof.Proof.ReferenceRun
import proofs.«159439_j41420664602706_1_alg».proof.Proof.ReferenceRead
import proofs.«159439_j41420664602706_1_alg».proof.Proof.ReferenceValue
import proofs.«159439_j41420664602706_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- Both programs end at the blend of the channel sums, the cover counts and the original image: the kernel by its run, the
    reference by its run read stage by stage; the arguments agree, so the two blends are one. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.Blend.result (Cert.KernelIdeal.Entry.sums m c) (Cert.KernelIdeal.Entry.counts m c)
      (m ((c.tc : Thread Cert.KernelIdeal.nD Cert.KernelIdeal.τ).loc Cert.KernelIdeal.main_arg1)),
    Cert.KernelIdeal.Blended.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v58_eq, Cert.ReferenceIdeal.Blended.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
